-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x1 : Shape := ⟨2, ![131072, 1]⟩
abbrev S64x256x4 : Shape := ⟨3, ![64, 256, 4]⟩
abbrev S64x4x128 : Shape := ⟨3, ![64, 4, 128]⟩
abbrev S64x128 : Shape := ⟨2, ![64, 128]⟩
abbrev S256x128 : Shape := ⟨2, ![256, 128]⟩
abbrev S128 : Shape := ⟨1, ![128]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S64x256x4 : S_.BroadcastsInDim S64x256x4 (![] : Fin 0 → Fin S64x256x4.rank)
  reducesTo_S64x256x4_S_d0_1_2 : S64x256x4.ReducesTo [0, 1, 2] S_
  bcast_S_S64x4x128 : S_.BroadcastsInDim S64x4x128 (![] : Fin 0 → Fin S64x4x128.rank)
  reducesTo_S64x4x128_S_d0_1_2 : S64x4x128.ReducesTo [0, 1, 2] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S131072x256 .f32) (main_arg1 : IVec S131072x1 32) (main_arg2 : FVec F S64x256x4 .f32) (main_arg3 : FVec F S64x4x128 .f32) (main_arg4 : FVec F S64x128 .f32) (main_arg5 : FVec F S256x128 .f32) (main_arg6 : FVec F S128 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S64x256x4 .f32 := Host.absf main_arg2
  let main_cst_0 : FVec F S_ .f32 := constant S_ .f32 0x7F800000#32
  let main_v5 : FVec F S64x256x4 .f32 := broadcastInDim S64x256x4 ![] bcast_S_S64x256x4 main_cst_0
  let main_v6 : IVec S64x256x4 1 := cmpf .olt main_v4 main_v5
  let main_c_1 : IVec S_ 1 := constantI S_ 1 1#1
  let main_v7 : IVec S_ 1 := (fun x v => Host.reduce IntOp.andi x v reducesTo_S64x256x4_S_d0_1_2 h_S_) main_v6 main_c_1
  let main_v8 : IVec S_ 1 := andi main_v3 main_v7
  let main_v9 : FVec F S64x4x128 .f32 := Host.absf main_arg3
  let main_cst_2 : FVec F S_ .f32 := constant S_ .f32 0x7F800000#32
  let main_v10 : FVec F S64x4x128 .f32 := broadcastInDim S64x4x128 ![] bcast_S_S64x4x128 main_cst_2
  let main_v11 : IVec S64x4x128 1 := cmpf .olt main_v9 main_v10
  let main_c_3 : IVec S_ 1 := constantI S_ 1 1#1
  let main_v12 : IVec S_ 1 := (fun x v => Host.reduce IntOp.andi x v reducesTo_S64x4x128_S_d0_1_2 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S131072x256 : Shape := ⟨2, ![131072, 256]⟩
abbrev S131072x1 : Shape := ⟨2, ![131072, 1]⟩
abbrev S64x256x4 : Shape := ⟨3, ![64, 256, 4]⟩
abbrev S64x4x128 : Shape := ⟨3, ![64, 4, 128]⟩
abbrev S64x128 : Shape := ⟨2, ![64, 128]⟩
abbrev S256x128 : Shape := ⟨2, ![256, 128]⟩
abbrev S128 : Shape := ⟨1, ![128]⟩
abbrev S1x1 : Shape := ⟨2, ![1, 1]⟩
abbrev S_ : Shape := ⟨0, ![]⟩
abbrev S1x256x4 : Shape := ⟨3, ![1, 256, 4]⟩
abbrev S256x4 : Shape := ⟨2, ![256, 4]⟩
abbrev S1x4x128 : Shape := ⟨3, ![1, 4, 128]⟩
abbrev S4x128 : Shape := ⟨2, ![4, 128]⟩
abbrev S1x128 : Shape := ⟨2, ![1, 128]⟩
abbrev S131072x128 : Shape := ⟨2, ![131072, 128]⟩
abbrev S4096x256 : Shape := ⟨2, ![4096, 256]⟩
abbrev S4096x128 : Shape := ⟨2, ![4096, 128]⟩

abbrev nBuf : Space → Nat
  | .hbm => 76
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x1, .i32⟩
  | .hbm, ⟨2, _⟩ => ⟨S64x256x4, .f32⟩
  | .hbm, ⟨3, _⟩ => ⟨S64x4x128, .f32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S1x1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x256x4, .f32⟩
  | .hbm, ⟨31, _⟩ => ⟨S256x4, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x128, .f32⟩
  | .hbm, ⟨54, _⟩ => ⟨S4x128, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x128, .f32⟩
  | .hbm, ⟨69, _⟩ => ⟨S128, .f32⟩
  | .hbm, ⟨70, _⟩ => ⟨S256x128, .f32⟩
  | .hbm, ⟨71, _⟩ => ⟨S256x128, .f32⟩
  | .hbm, ⟨72, _⟩ => ⟨S128, .f32⟩
  | .hbm, ⟨73, _⟩ => ⟨S256x128, .bf16⟩
  | .hbm, ⟨74, _⟩ => ⟨S1x128, .f32⟩
  | .hbm, ⟨75, _⟩ => ⟨S131072x128, .f32⟩
  | .local _ .vmem, ⟨0, _⟩ => ⟨S4096x256, .f32⟩
  | .local _ .vmem, ⟨1, _⟩ => ⟨S4096x256, .f32⟩
  | .local _ .vmem, ⟨2, _⟩ => ⟨S256x128, .bf16⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_v5 : Ref sig .tc := ⟨.hbm, 16, rfl⟩
abbrev main_c_3 : Ref sig .tc := ⟨.hbm, 17, rfl⟩
abbrev main_c_4 : Ref sig .tc := ⟨.hbm, 18, rfl⟩
abbrev main_v6 : Ref sig .tc := ⟨.hbm, 19, rfl⟩
abbrev main_c_5 : Ref sig .tc := ⟨.hbm, 20, rfl⟩
abbrev main_v7 : Ref sig .tc := ⟨.hbm, 21, rfl⟩
abbrev main_c_6 : Ref sig .tc := ⟨.hbm, 22, rfl⟩
abbrev main_c_7 : Ref sig .tc := ⟨.hbm, 23, rfl⟩
abbrev main_v8 : Ref sig .tc := ⟨.hbm, 24, rfl⟩
abbrev main_c_8 : Ref sig .tc := ⟨.hbm, 25, rfl⟩
abbrev main_c_9 : Ref sig .tc := ⟨.hbm, 26, rfl⟩
abbrev main_v9 : Ref sig .tc := ⟨.hbm, 27, rfl⟩
abbrev main_c_10 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_11 : Ref sig .tc := ⟨.hbm, 32, rfl⟩
abbrev main_v13 : Ref sig .tc := ⟨.hbm, 33, rfl⟩
abbrev main_c_12 : Ref sig .tc := ⟨.hbm, 34, rfl⟩
abbrev main_v14 : Ref sig .tc := ⟨.hbm, 35, rfl⟩
abbrev main_v15 : Ref sig .tc := ⟨.hbm, 36, rfl⟩
abbrev main_c_13 : Ref sig .tc := ⟨.hbm, 37, rfl⟩
abbrev main_c_14 : Ref sig .tc := ⟨.hbm, 38, rfl⟩
abbrev main_v16 : Ref sig .tc := ⟨.hbm, 39, rfl⟩
abbrev main_c_15 : Ref sig .tc := ⟨.hbm, 40, rfl⟩
abbrev main_c_16 : Ref sig .tc := ⟨.hbm, 41, rfl⟩
abbrev main_v17 : Ref sig .tc := ⟨.hbm, 42, rfl⟩
abbrev main_c_17 : Ref sig .tc := ⟨.hbm, 43, rfl⟩
abbrev main_v18 : Ref sig .tc := ⟨.hbm, 44, rfl⟩
abbrev main_c_18 : Ref sig .tc := ⟨.hbm, 45, rfl⟩
abbrev main_c_19 : Ref sig .tc := ⟨.hbm, 46, rfl⟩
abbrev main_v19 : Ref sig .tc := ⟨.hbm, 47, rfl⟩
abbrev main_c_20 : Ref sig .tc := ⟨.hbm, 48, rfl⟩
abbrev main_c_21 : Ref sig .tc := ⟨.hbm, 49, rfl⟩
abbrev main_v20 : Ref sig .tc := ⟨.hbm, 50, rfl⟩
abbrev main_c_22 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_23 : Ref sig .tc := ⟨.hbm, 55, rfl⟩
abbrev main_v24 : Ref sig .tc := ⟨.hbm, 56, rfl⟩
abbrev main_c_24 : Ref sig .tc := ⟨.hbm, 57, rfl⟩
abbrev main_v25 : Ref sig .tc := ⟨.hbm, 58, rfl⟩
abbrev main_v26 : Ref sig .tc := ⟨.hbm, 59, rfl⟩
abbrev main_c_25 : Ref sig .tc := ⟨.hbm, 60, rfl⟩
abbrev main_c_26 : Ref sig .tc := ⟨.hbm, 61, rfl⟩
abbrev main_v27 : Ref sig .tc := ⟨.hbm, 62, rfl⟩
abbrev main_c_27 : Ref sig .tc := ⟨.hbm, 63, rfl⟩
abbrev main_c_28 : Ref sig .tc := ⟨.hbm, 64, rfl⟩
abbrev main_v28 : Ref sig .tc := ⟨.hbm, 65, rfl⟩
abbrev main_c_29 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S131072x1_S1x1_0_0 : S131072x1.Slices ![0, 0] S1x1
  shapeCasts_S1x1_S_ : S1x1.ShapeCasts S_
  sliceFits_S64x256x4_S1x256x4 : S64x256x4.Slices (fun _ => 0) S1x256x4
  h_S_ : 0 < S_.numel
  shapeCasts_S1x256x4_S256x4 : S1x256x4.ShapeCasts S256x4
  sliceFits_S64x4x128_S1x4x128 : S64x4x128.Slices (fun _ => 0) S1x4x128
  shapeCasts_S1x4x128_S4x128 : S1x4x128.ShapeCasts S4x128
  sliceFits_S64x128_S1x128 : S64x128.Slices (fun _ => 0) S1x128
  shapeCasts_S1x128_S128 : S1x128.ShapeCasts S128
  bitsLt_bf16_f32 : FTy.bits .bf16 < FTy.bits .f32
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S256x4_S4x128_S256x128_1_0_0_1_n_n_wf : DotDims.WF S256x4 S4x128 S256x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def dot_S256x4_S4x128_S256x128_1_0_0_1_n_n : DotDims S256x4 S4x128 S256x128 where
  lhsContracting := [1]
  rhsContracting := [0]
  lhsNonContracting := [0]
  rhsNonContracting := [1]
  lhsBatch := []
  rhsBatch := []
  wf := dot_S256x4_S4x128_S256x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x1 : Shape := ⟨2, ![131072, 1]⟩
abbrev S64x256x4 : Shape := ⟨3, ![64, 256, 4]⟩
abbrev S64x4x128 : Shape := ⟨3, ![64, 4, 128]⟩
abbrev S64x128 : Shape := ⟨2, ![64, 128]⟩
abbrev S256x128 : Shape := ⟨2, ![256, 128]⟩
abbrev S128 : Shape := ⟨1, ![128]⟩
abbrev S131072x128 : Shape := ⟨2, ![131072, 128]⟩
abbrev S1x128 : Shape := ⟨2, ![1, 128]⟩
abbrev S1x1 : Shape := ⟨2, ![1, 1]⟩
abbrev S_ : Shape := ⟨0, ![]⟩
abbrev S1x256x4 : Shape := ⟨3, ![1, 256, 4]⟩
abbrev S256x4 : Shape := ⟨2, ![256, 4]⟩
abbrev S1x4x128 : Shape := ⟨3, ![1, 4, 128]⟩
abbrev S4x128 : Shape := ⟨2, ![4, 128]⟩
abbrev S131072x4 : Shape := ⟨2, ![131072, 4]⟩

abbrev nBuf : Space → Nat
  | .hbm => 83
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x1, .i32⟩
  | .hbm, ⟨2, _⟩ => ⟨S64x256x4, .f32⟩
  | .hbm, ⟨3, _⟩ => ⟨S64x4x128, .f32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S131072x128, .f32⟩
  | .hbm, ⟨8, _⟩ => ⟨S1x128, .f32⟩
  | .hbm, ⟨9, _⟩ => ⟨S131072x128, .f32⟩
  | .hbm, ⟨10, _⟩ => ⟨S131072x128, .f32⟩
  | .hbm, ⟨11, _⟩ => ⟨S1x1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x256x4, .f32⟩
  | .hbm, ⟨35, _⟩ => ⟨S256x4, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x128, .f32⟩
  | .hbm, ⟨58, _⟩ => ⟨S4x128, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x128, .f32⟩
  | .hbm, ⟨73, _⟩ => ⟨S128, .f32⟩
  | .hbm, ⟨74, _⟩ => ⟨S131072x4, .f32⟩
  | .hbm, ⟨75, _⟩ => ⟨S131072x128, .f32⟩
  | .hbm, ⟨76, _⟩ => ⟨S131072x128, .f32⟩
  | .hbm, ⟨77, _⟩ => ⟨S1x128, .f32⟩
  | .hbm, ⟨78, _⟩ => ⟨S131072x128, .f32⟩
  | .hbm, ⟨79, _⟩ => ⟨S131072x128, .f32⟩
  | .hbm, ⟨80, _⟩ => ⟨S_, .f32⟩
  | .hbm, ⟨81, _⟩ => ⟨S131072x128, .f32⟩
  | .hbm, ⟨82, _⟩ => ⟨S131072x128, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_c_4 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_c_6 : Ref sig .tc := ⟨.hbm, 26, rfl⟩
abbrev main_c_7 : Ref sig .tc := ⟨.hbm, 27, rfl⟩
abbrev main_v12 : Ref sig .tc := ⟨.hbm, 28, rfl⟩
abbrev main_c_8 : Ref sig .tc := ⟨.hbm, 29, rfl⟩
abbrev main_c_9 : Ref sig .tc := ⟨.hbm, 30, rfl⟩
abbrev main_v13 : Ref sig .tc := ⟨.hbm, 31, rfl⟩
abbrev main_c_10 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_11 : Ref sig .tc := ⟨.hbm, 36, rfl⟩
abbrev main_v17 : Ref sig .tc := ⟨.hbm, 37, rfl⟩
abbrev main_c_12 : Ref sig .tc := ⟨.hbm, 38, rfl⟩
abbrev main_v18 : Ref sig .tc := ⟨.hbm, 39, rfl⟩
abbrev main_v19 : Ref sig .tc := ⟨.hbm, 40, rfl⟩
abbrev main_c_13 : Ref sig .tc := ⟨.hbm, 41, rfl⟩
abbrev main_c_14 : Ref sig .tc := ⟨.hbm, 42, rfl⟩
abbrev main_v20 : Ref sig .tc := ⟨.hbm, 43, rfl⟩
abbrev main_c_15 : Ref sig .tc := ⟨.hbm, 44, rfl⟩
abbrev main_c_16 : Ref sig .tc := ⟨.hbm, 45, rfl⟩
abbrev main_v21 : Ref sig .tc := ⟨.hbm, 46, rfl⟩
abbrev main_c_17 : Ref sig .tc := ⟨.hbm, 47, rfl⟩
abbrev main_v22 : Ref sig .tc := ⟨.hbm, 48, rfl⟩
abbrev main_c_18 : Ref sig .tc := ⟨.hbm, 49, rfl⟩
abbrev main_c_19 : Ref sig .tc := ⟨.hbm, 50, rfl⟩
abbrev main_v23 : Ref sig .tc := ⟨.hbm, 51, rfl⟩
abbrev main_c_20 : Ref sig .tc := ⟨.hbm, 52, rfl⟩
abbrev main_c_21 : Ref sig .tc := ⟨.hbm, 53, rfl⟩
abbrev main_v24 : Ref sig .tc := ⟨.hbm, 54, rfl⟩
abbrev main_c_22 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_23 : Ref sig .tc := ⟨.hbm, 59, rfl⟩
abbrev main_v28 : Ref sig .tc := ⟨.hbm, 60, rfl⟩
abbrev main_c_24 : Ref sig .tc := ⟨.hbm, 61, rfl⟩
abbrev main_v29 : Ref sig .tc := ⟨.hbm, 62, rfl⟩
abbrev main_v30 : Ref sig .tc := ⟨.hbm, 63, rfl⟩
abbrev main_c_25 : Ref sig .tc := ⟨.hbm, 64, rfl⟩
abbrev main_c_26 : Ref sig .tc := ⟨.hbm, 65, rfl⟩
abbrev main_v31 : Ref sig .tc := ⟨.hbm, 66, rfl⟩
abbrev main_c_27 : Ref sig .tc := ⟨.hbm, 67, rfl⟩
abbrev main_c_28 : Ref sig .tc := ⟨.hbm, 68, rfl⟩
abbrev main_v32 : Ref sig .tc := ⟨.hbm, 69, rfl⟩
abbrev main_c_29 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call0_cst : Ref sig .tc := ⟨.hbm, 80, rfl⟩
abbrev main_call0_v0 : Ref sig .tc := ⟨.hbm, 81, rfl⟩
abbrev main_v42 : Ref sig .tc := ⟨.hbm, 82, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S131072x1_S1x1_0_0 : S131072x1.Slices ![0, 0] S1x1
  shapeCasts_S1x1_S_ : S1x1.ShapeCasts S_
  sliceFits_S64x256x4_S1x256x4 : S64x256x4.Slices (fun _ => 0) S1x256x4
  h_S_ : 0 < S_.numel
  shapeCasts_S1x256x4_S256x4 : S1x256x4.ShapeCasts S256x4
  sliceFits_S64x4x128_S1x4x128 : S64x4x128.Slices (fun _ => 0) S1x4x128
  shapeCasts_S1x4x128_S4x128 : S1x4x128.ShapeCasts S4x128
  sliceFits_S64x128_S1x128 : S64x128.Slices (fun _ => 0) S1x128
  shapeCasts_S1x128_S128 : S1x128.ShapeCasts S128
  bcast_S_S131072x128 : S_.BroadcastsInDim S131072x128 (![] : Fin 0 → Fin S131072x128.rank)
  dot_S131072x256_S256x128_S131072x128_1_0_0_1_n_n_wf : DotDims.WF S131072x256 S256x128 S131072x128 [1] [0] [0] [1] [] []
  dot_S131072x256_S256x4_S131072x4_1_0_0_1_n_n_wf : DotDims.WF S131072x256 S256x4 S131072x4 [1] [0] [0] [1] [] []
  dot_S131072x4_S4x128_S131072x128_1_0_0_1_n_n_wf : DotDims.WF S131072x4 S4x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x256_S256x4_S131072x4_1_0_0_1_n_n : DotDims S131072x256 S256x4 S131072x4 where
  lhsContracting := [1]
  rhsContracting := [0]
  lhsNonContracting := [0]
  rhsNonContracting := [1]
  lhsBatch := []
  rhsBatch := []
  wf := dot_S131072x256_S256x4_S131072x4_1_0_0_1_n_n_wf
def dot_S131072x4_S4x128_S131072x128_1_0_0_1_n_n : DotDims S131072x4 S4x128 S131072x128 where
  lhsContracting := [1]
  rhsContracting := [0]
  lhsNonContracting := [0]
  rhsNonContracting := [1]
  lhsBatch := []
  rhsBatch := []
  wf := dot_S131072x4_S4x128_S131072x128_1_0_0_1_n_n_wf

class Facts : Prop extends Facts₀ where

variable [Facts]
-- ==== Proof.BitsFrame.lean ====
/-
  The word-level kernel's run. The program is a stretch of host operations that builds the folded weight
  `kernel + A·B` (narrowed to bf16) and the folded bias row `bias + db` out of the rows the domain index selects,
  then one pipelined region over 32 grid points whose body multiplies a 4096-row block of the batch by the folded
  weight, adds the bias row and rectifies. Here: what the arrays hold when the region is entered, what the body
  leaves in the output block (its one store, covering the block), the body's triple, the pipeline's proof data,
  and from them the run: it terminates without a fault and the seven arguments are unchanged. Stated at any float
  instance; the claim reads it at the word-level one.
-/
import proofs.«144904_j54752243089559_1_alg».proof.Proof.Gen.Kernel.Launch
import proofs.«144904_j54752243089559_1_alg».proof.Proof.Gen.Kernel.Skeleton
import proofs.«144904_j54752243089559_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the matrix product's region is entered -/

/-- What core `c`'s buffers hold when the region is entered: the launch contents after the host stretch that
    selects the domain's low-rank factors and bias row, folds them into the dense weight and bias, and
    narrows the weight. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found as launched. Every host operation writes its own
    result buffer, and the seven arguments are no operation's result. -/
theorem V_of_not_written (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg5 (c : Dev nD) : V m c main_arg5 = m ((c : Thread nD τ).loc main_arg5) :=
  V_of_not_written m c main_arg5 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg6 (c : Dev nD) : V m c main_arg6 = m ((c : Thread nD τ).loc main_arg6) :=
  V_of_not_written m c main_arg6 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or
    the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or
    the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or
    the block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S4096x256 := Rect.unit (s := S4096x256) ![0, 0] S4096x256.size inb_S4096x256_S4096x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S4096x128 := Rect.unit (s := S4096x128) ![0, 0] S4096x128.size inb_S4096x128_S4096x128_0_0

/-- The output window's staging buffer after the body: its one store, of the rectified affine map of the three
    input blocks, covers the whole block. -/
def outBlk (x : Vec F S4096x256 .f32) (w : Vec F S256x128 .bf16) (b : Vec F S1x128 .f32) : Vec F S4096x128 .f32 :=
  View.canon [⟨rO, k0_pay1 (View.ld x rX) (View.ld w rW) (View.ld b rB)⟩]

theorem cover_out (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

/-! ## The body's triple -/

set_option maxHeartbeats 1000000 in
/-- The body on whole staging memrefs, the three inputs at contents `x`, `w`, `b` and the output at anything,
    ends with the inputs as they were and the output at `outBlk x w b`. -/
theorem sound_kernel (c : Dev nD) (E : Set ℕ) (i : grid0.Coords)
    (arg1 : Memref sig .tc .vmem S4096x256 .f32) (harg1 : arg1.IsWhole) (arg2 : Memref sig .tc .vmem S256x128 .bf16) (harg2 : arg2.IsWhole)
    (arg3 : Memref sig .tc .vmem S1x128 .f32) (harg3 : arg3.IsWhole) (arg4 : Memref sig .tc .vmem S4096x128 .f32) (harg4 : arg4.IsWhole)
    (x : Vec F S4096x256 .f32) (w : Vec F S256x128 .bf16) (b : Vec F S1x128 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outBlk x w b)) -∗ K ⟨⟩))
      ⊢ wp frame (wpE (defs₀ (F := F)) Variants.none c none) E (cc0__fcn_kernel i arg1 harg1 arg2 harg2 arg3 harg3 arg4 harg4) K := by
  simp only [cc0__fcn_kernel_eq_skeleton]; unfold cc0__fcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The arrays as the region finds them; after the body at point `t` each input's buffer still at its block and
    the output's at `outBlk` of the three input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; afterwards each window's array holds
    what the proof data says (an input its entry contents, the output the blocks written back) and every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the result array is the proof data's final array of the output window. -/
theorem post_out (r : PUnit × MemSt nD τ sig (Elt F)) (h : Pipeline.FramePost cfgs (dats m) 0 (V m) r) (c : Dev nD) :
    r.2.mem ((c : Thread nD τ).loc main_v37) = (dats m 0 c).arrAt 3 cfg0.N :=
  (h c).1 3

/-- The batch array is staged by the first input window and never written back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is no window's array: the region passes it by. -/
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- Argument 2 is no window's array: the region passes it by. -/
theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- Argument 3 is no window's array: the region passes it by. -/
theorem kept_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- Argument 4 is no window's array: the region passes it by. -/
theorem kept_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- Argument 5 is no window's array: the region passes it by. -/
theorem kept_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- Argument 6 is no window's array: the region passes it by. -/
theorem kept_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run with the result array named and the seven arguments unchanged. -/
theorem run_named : θ_run defs (onTc (τ := τ) (main (F := F))) ⟨m, fun _ => 0, ρ⟩ fun r => ∀ c : Dev nD,
      r.2.mem ((c : Thread nD τ).loc main_v37) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post_out m r h c, kept_arg0 m r h c, kept_arg1 m r h c, kept_arg2 m r h c,
      kept_arg3 m r h c, kept_arg4 m r h c, kept_arg5 m r h c, kept_arg6 m r h c⟩)
    (run_main m ρ)

/-- The frame: the program runs to the end without a fault and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.Kernel.Fr

end
-- ==== Proof.IdealFrame.lean ====
/-
  The idealized kernel's run. The program is a stretch of host operations that builds the folded weight
  `kernel + A·B` (narrowed) and the folded bias row `bias + db` out of the rows the domain index selects, then one
  pipelined region over 32 grid points whose body multiplies a 4096-row block of the batch by the folded weight,
  adds the bias row and rectifies. Here: what the arrays hold when the region is entered, what the body leaves
  in the output block (its one store, covering the block), the body's triple, the pipeline's proof data, and
  from them the run: it terminates without a fault, the result array is the proof data's final array, and the
  seven arguments are unchanged. Stated at any float instance.
-/
import proofs.«144904_j54752243089559_1_alg».proof.Proof.Gen.KernelIdeal.Launch
import proofs.«144904_j54752243089559_1_alg».proof.Proof.Gen.KernelIdeal.Skeleton
import proofs.«144904_j54752243089559_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the matrix product's region is entered -/

/-- What core `c`'s buffers hold when the region is entered: the launch contents after the host stretch that
    selects the domain's low-rank factors and bias row, folds them into the dense weight and bias, and
    narrows the weight. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found as launched. Every host operation writes its own
    result buffer, and the seven arguments are no operation's result. -/
theorem V_of_not_written (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg5 (c : Dev nD) : V m c main_arg5 = m ((c : Thread nD τ).loc main_arg5) :=
  V_of_not_written m c main_arg5 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))
theorem V_main_arg6 (c : Dev nD) : V m c main_arg6 = m ((c : Thread nD τ).loc main_arg6) :=
  V_of_not_written m c main_arg6 (by
    simp only [hostOps0, List.Forall, StableHlo.nullary_writes, StableHlo.unary_writes, StableHlo.binary_writes,
      StableHlo.ternary_writes, StableHlo.reshape_writes, StableHlo.unaryIndexed_writes, Finset.mem_singleton]
    repeat' apply And.intro
    all_goals exact StableHlo.devRef_ne_of_ne (by decide))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether it was fetched there or
    the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether it was fetched there or
    the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether it was fetched there or
    the block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S4096x256 := Rect.unit (s := S4096x256) ![0, 0] S4096x256.size inb_S4096x256_S4096x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S4096x128 := Rect.unit (s := S4096x128) ![0, 0] S4096x128.size inb_S4096x128_S4096x128_0_0

/-- The output window's staging buffer after the body: its one store, of the rectified affine map of the three
    input blocks, covers the whole block. -/
def outBlk (x : Vec F S4096x256 .f32) (w : Vec F S256x128 .bf16) (b : Vec F S1x128 .f32) : Vec F S4096x128 .f32 :=
  View.canon [⟨rO, k0_pay1 (View.ld x rX) (View.ld w rW) (View.ld b rB)⟩]

theorem cover_out (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

/-! ## The body's triple -/

set_option maxHeartbeats 1000000 in
/-- The body on whole staging memrefs, the three inputs at contents `x`, `w`, `b` and the output at anything,
    ends with the inputs as they were and the output at `outBlk x w b`. -/
theorem sound_kernel (c : Dev nD) (E : Set ℕ) (i : grid0.Coords)
    (arg1 : Memref sig .tc .vmem S4096x256 .f32) (harg1 : arg1.IsWhole) (arg2 : Memref sig .tc .vmem S256x128 .bf16) (harg2 : arg2.IsWhole)
    (arg3 : Memref sig .tc .vmem S1x128 .f32) (harg3 : arg3.IsWhole) (arg4 : Memref sig .tc .vmem S4096x128 .f32) (harg4 : arg4.IsWhole)
    (x : Vec F S4096x256 .f32) (w : Vec F S256x128 .bf16) (b : Vec F S1x128 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outBlk x w b)) -∗ K ⟨⟩))
      ⊢ wp frame (wpE (defs₀ (F := F)) Variants.none c none) E (cc0__fcn_kernel i arg1 harg1 arg2 harg2 arg3 harg3 arg4 harg4) K := by
  simp only [cc0__fcn_kernel_eq_skeleton]; unfold cc0__fcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The arrays as the region finds them; after the body at point `t` each input's buffer still at its block and
    the output's at `outBlk` of the three input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; afterwards each window's array holds
    what the proof data says (an input its entry contents, the output the blocks written back) and every other
    unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the result array is the proof data's final array of the output window. -/
theorem post_out (r : PUnit × MemSt nD τ sig (Elt F)) (h : Pipeline.FramePost cfgs (dats m) 0 (V m) r) (c : Dev nD) :
    r.2.mem ((c : Thread nD τ).loc main_v37) = (dats m 0 c).arrAt 3 cfg0.N :=
  (h c).1 3

/-- The batch array is staged by the first input window and never written back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is no window's array: the region passes it by. -/
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- Argument 2 is no window's array: the region passes it by. -/
theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- Argument 3 is no window's array: the region passes it by. -/
theorem kept_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- Argument 4 is no window's array: the region passes it by. -/
theorem kept_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- Argument 5 is no window's array: the region passes it by. -/
theorem kept_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- Argument 6 is no window's array: the region passes it by. -/
theorem kept_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run with the result array named and the seven arguments unchanged. -/
theorem run_named : θ_run defs (onTc (τ := τ) (main (F := F))) ⟨m, fun _ => 0, ρ⟩ fun r => ∀ c : Dev nD,
      r.2.mem ((c : Thread nD τ).loc main_v37) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post_out m r h c, kept_arg0 m r h c, kept_arg1 m r h c, kept_arg2 m r h c,
      kept_arg3 m r h c, kept_arg4 m r h c, kept_arg5 m r h c, kept_arg6 m r h c⟩)
    (run_main m ρ)

/-- The frame: the program runs to the end without a fault and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.KernelIdeal.Fr

end
-- ==== Proof.IdealPayload.lean ====
/-
  The idealized kernel's arithmetic read at an index. The body's one stored value, at row `p` and column `q` of the
  block, is `max (∑ k, x[p, k] · w[k, q] + b[0, q]) 0`: the narrowing of `x` and the same-shape casts are the identity
  on the extended reals, the matrix product into a zero accumulator is the plain sum over the contracted axis, the
  bias row is broadcast down the rows, and the rectifier is the maximum with zero. The host's small product
  `A · B` (256 × 4 by 4 × 128) is read the same way.
-/
import proofs.«144904_j54752243089559_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ### The 4096 × 256 by 256 × 128 product's index maps -/

theorem lhs_4096x256_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_4096x256_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_256x128_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_256x128_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The contraction of row `p` of the left operand with column `q` of the right one, as a sum over `Fin 256`. -/
theorem sum_4096x256x128 (l : S4096x256.Idx → EReal) (r : S256x128.Idx → EReal) (p : Fin 4096) (q : Fin 128) :
    ∑ k : dot_S4096x256_S256x128_S4096x128_1_0_0_1_n_n.contr.Idx, l (dot_S4096x256_S256x128_S4096x128_1_0_0_1_n_n.lhsIdx (ix2 p q) k) * r (dot_S4096x256_S256x128_S4096x128_1_0_0_1_n_n.rhsIdx (ix2 p q) k)
      = ∑ k : Fin 256, l (ix2 p k) * r (ix2 k q) := by
  rw [← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 p q) ((ValueIdx.contrEquiv1 dot_S4096x256_S256x128_S4096x128_1_0_0_1_n_n 256 rfl rfl).symm k) = ix2 p k := funext fun a => Fin.ext (by
    match a with
    | ⟨0, _⟩ => exact lhs_4096x256_0 _ _
    | ⟨1, _⟩ => exact (lhs_4096x256_1 _ _).trans hk)
  have er : dot_S4096x256_S256x128_S4096x128_1_0_0_1_n_n.rhsIdx (ix2 p q) ((ValueIdx.contrEquiv1 dot_S4096x256_S256x128_S4096x128_1_0_0_1_n_n 256 rfl rfl).symm k) = ix2 k q := funext fun a => Fin.ext (by
    match a with
    | ⟨0, _⟩ => exact (rhs_256x128_0 _ _).trans hk
    | ⟨1, _⟩ => exact rhs_256x128_1 _ _)
  rw [el, er]

/-! ### The 256 × 4 by 4 × 128 product's index maps -/

theorem lhs_256x4_0 (i : S256x128.Idx) (q : dot_S256x4_S4x128_S256x128_1_0_0_1_n_n.contr.Idx) :
    (dot_S256x4_S4x128_S256x128_1_0_0_1_n_n.lhsIdx i q 0).val = (i 0).val := by
  unfold DotDims.lhsIdx
  rw [dif_neg (show ¬(0 : Fin S256x4.rank) ∈ dot_S256x4_S4x128_S256x128_1_0_0_1_n_n.lhsBatch by decide), dif_pos (show (0 : Fin S256x4.rank) ∈ dot_S256x4_S4x128_S256x128_1_0_0_1_n_n.lhsNonContracting by decide)]
  rfl
theorem lhs_256x4_1 (i : S256x128.Idx) (q : dot_S256x4_S4x128_S256x128_1_0_0_1_n_n.contr.Idx) :
    (dot_S256x4_S4x128_S256x128_1_0_0_1_n_n.lhsIdx i q 1).val = (q ⟨0, by decide⟩).val :=
  dot_S256x4_S4x128_S256x128_1_0_0_1_n_n.lhsIdx_val_of_single rfl i q
theorem rhs_4x128_0 (i : S256x128.Idx) (q : dot_S256x4_S4x128_S256x128_1_0_0_1_n_n.contr.Idx) :
    (dot_S256x4_S4x128_S256x128_1_0_0_1_n_n.rhsIdx i q 0).val = (q ⟨0, by decide⟩).val :=
  dot_S256x4_S4x128_S256x128_1_0_0_1_n_n.rhsIdx_val_of_single rfl i q
theorem rhs_4x128_1 (i : S256x128.Idx) (q : dot_S256x4_S4x128_S256x128_1_0_0_1_n_n.contr.Idx) :
    (dot_S256x4_S4x128_S256x128_1_0_0_1_n_n.rhsIdx i q 1).val = (i 1).val := by
  unfold DotDims.rhsIdx
  rw [dif_neg (show ¬(1 : Fin S4x128.rank) ∈ dot_S256x4_S4x128_S256x128_1_0_0_1_n_n.rhsBatch by decide), dif_pos (show (1 : Fin S4x128.rank) ∈ dot_S256x4_S4x128_S256x128_1_0_0_1_n_n.rhsNonContracting by decide)]
  rfl

/-- The contraction of row `p` of the left operand with column `q` of the right one, as a sum over `Fin 4`. -/
theorem sum_256x4x128 (l : S256x4.Idx → EReal) (r : S4x128.Idx → EReal) (p : Fin 256) (q : Fin 128) :
    ∑ k : dot_S256x4_S4x128_S256x128_1_0_0_1_n_n.contr.Idx, l (dot_S256x4_S4x128_S256x128_1_0_0_1_n_n.lhsIdx (ix2 p q) k) * r (dot_S256x4_S4x128_S256x128_1_0_0_1_n_n.rhsIdx (ix2 p q) k)
      = ∑ k : Fin 4, l (ix2 p k) * r (ix2 k q) := by
  rw [← Equiv.sum_comp (ValueIdx.contrEquiv1 dot_S256x4_S4x128_S256x128_1_0_0_1_n_n 4 rfl rfl).symm]
  refine Finset.sum_congr rfl fun k _ => ?_
  have hk := ValueIdx.contrEquiv1_symm_val dot_S256x4_S4x128_S256x128_1_0_0_1_n_n 4 rfl rfl k
  have el : dot_S256x4_S4x128_S256x128_1_0_0_1_n_n.lhsIdx (ix2 p q) ((ValueIdx.contrEquiv1 dot_S256x4_S4x128_S256x128_1_0_0_1_n_n 4 rfl rfl).symm k) = ix2 p k := funext fun a => Fin.ext (by
    match a with
    | ⟨0, _⟩ => exact lhs_256x4_0 _ _
    | ⟨1, _⟩ => exact (lhs_256x4_1 _ _).trans hk)
  have er : dot_S256x4_S4x128_S256x128_1_0_0_1_n_n.rhsIdx (ix2 p q) ((ValueIdx.contrEquiv1 dot_S256x4_S4x128_S256x128_1_0_0_1_n_n 4 rfl rfl).symm k) = ix2 k q := funext fun a => Fin.ext (by
    match a with
    | ⟨0, _⟩ => exact (rhs_4x128_0 _ _).trans hk
    | ⟨1, _⟩ => exact rhs_4x128_1 _ _)
  rw [el, er]

/-- The body's matrix product into a zero accumulator, at `(p, q)`. -/
theorem matmul_apply (l : FVec Ideal S4096x256 .bf16) (r : FVec Ideal S256x128 .bf16) (p : Fin 4096) (q : Fin 128) :
    matmul dot_S4096x256_S256x128_S4096x128_1_0_0_1_n_n none l r (constant (F := Ideal) S4096x128 .f32 0x00000000#32) (ix2 p q)
      = ∑ k : Fin 256, l (ix2 p k) * r (ix2 k q) :=
  (Ideal.matmul_constant_zero_apply dot_S4096x256_S256x128_S4096x128_1_0_0_1_n_n none l r (ix2 p q)).trans
    (sum_4096x256x128 l r p q)

/-- The host's product of the two selected low-rank factors, at `(k, q)`. -/
theorem lowrank_apply (A : FVec Ideal S256x4 .f32) (B : FVec Ideal S4x128 .f32) (k : Fin 256) (q : Fin 128) :
    Host.dotGeneral dot_S256x4_S4x128_S256x128_1_0_0_1_n_n none A B (ix2 k q)
      = ∑ r : Fin 4, A (ix2 k r) * B (ix2 r q) :=
  (Ideal.dotGeneral_apply dot_S256x4_S4x128_S256x128_1_0_0_1_n_n none .single A B (ix2 k q)).trans
    (sum_256x4x128 A B k q)

/-- The rectifier's zero. -/
theorem zero_word : (Scalar.ofBits (F := Ideal) .f32 0x00000000#32 : EReal) = 0 := Ideal.ofBits_zero_f32

/-- THE PAYLOAD AT AN INDEX: what the body stores at row `p`, column `q` of the output block. -/
theorem pay_apply (x : FVec Ideal S4096x256 .f32) (w : FVec Ideal S256x128 .bf16) (b : FVec Ideal S1x128 .f32)
    (p : Fin 4096) (q : Fin 128) :
    k0_pay1 (F := Ideal) x w b (ix2 p q) = max ((∑ k : Fin 256, x (ix2 p k) * w (ix2 k q)) + b (ix2 0 q)) 0 := by
  unfold k0_pay1
  refine (maximumf_apply _ _ (ix2 p q)).trans ?_
  refine congrArg₂ max ?_ zero_word
  refine (addf_apply _ _ (ix2 p q)).trans ?_
  refine congrArg₂ (· + ·) ?_ ?_
  · rw [shapeCast_self]
    exact matmul_apply _ w p q
  · rw [shapeCast_self]
    exact broadcastTo_1b_ab_apply b _ p q

end Cert.KernelIdeal.Pay

end
-- ==== Proof.Spec.lean ====
/-
  The mathematics of the certificate, over the extended reals and over literal shapes; no program is imported.

  A dense layer with a bias row and a rectifier: `out[p, q] = max (∑ k, x[p, k] · W[k, q] + b[0, q]) 0`.
  The kernel applies it to the FOLDED weight `W = K + A · B` (a rank-4 update of the 256 × 128 weight) and the folded
  bias row `b = bias + db`. The reference adds the pieces separately:
  `max (((∑ k, x[p, k] · K[k, q] + bias[q]) + ∑ r, (∑ k, x[p, k] · A[k, r]) · B[r, q]) + db[q]) 0`.
  The two agree when `x`, `K`, `A` and `B` hold real numbers: the product distributes over the sum and the two
  finite sums over `k` and `r` exchange, which is true in the reals and fails at the infinities; the bias terms only
  move inside a sum of four, which the extended reals allow whatever they are.
-/
import Idealize.ShloMosaic.PureOps.Ideal
import Idealize.ShloMosaic.Lib.ValueIdx

noncomputable section

namespace Cert.LowRank

open Idealize.ShloMosaic Idealize.ShloMosaic.ValueIdx

/-- The batch, the dense weight, the bias row as the kernel holds it, the rank-4 factors, a bias vector, the result. -/
abbrev TX : Type := (⟨2, ![131072, 256]⟩ : Shape).Idx → EReal
abbrev TW : Type := (⟨2, ![256, 128]⟩ : Shape).Idx → EReal
abbrev TRow : Type := (⟨2, ![1, 128]⟩ : Shape).Idx → EReal
abbrev TA : Type := (⟨2, ![256, 4]⟩ : Shape).Idx → EReal
abbrev TB : Type := (⟨2, ![4, 128]⟩ : Shape).Idx → EReal
abbrev TV : Type := (⟨1, ![128]⟩ : Shape).Idx → EReal
abbrev TOut : Type := (⟨2, ![131072, 128]⟩ : Shape).Idx → EReal

/-- Every entry is a real number. -/
def AllReal {ι : Type} (f : ι → EReal) : Prop := ∀ i, ∃ r : ℝ, f i = (r : EReal)

/-- The dense layer at row `p`, column `q`. -/
def denseAt (x : TX) (W : TW) (b : TRow) (p : Fin 131072) (q : Fin 128) : EReal :=
  max ((∑ k : Fin 256, x (ix2 p k) * W (ix2 k q)) + b (ix2 0 q)) 0

/-- The dense layer as one array. -/
def dense (x : TX) (W : TW) (b : TRow) : TOut := fun i => denseAt x W b (i 0) (i 1)

/-- The folded weight `K + A · B`. -/
def foldW (K : TW) (A : TA) (B : TB) : TW := fun j => K j + ∑ r : Fin 4, A (ix2 (j 0) r) * B (ix2 r (j 1))

/-- The folded bias row `bias + db`. -/
def foldRow (bias db : TV) : TRow := fun j => bias (ix1 (j 1)) + db (ix1 (j 1))

/-- The reference's form at row `p`, column `q`: the dense part and its bias, the low-rank part, the domain's bias. -/
def splitAt (x : TX) (K : TW) (bias : TV) (A : TA) (B : TB) (db : TV) (p : Fin 131072) (q : Fin 128) : EReal :=
  max ((((∑ k : Fin 256, x (ix2 p k) * K (ix2 k q)) + bias (ix1 q))
        + ∑ r : Fin 4, (∑ k : Fin 256, x (ix2 p k) * A (ix2 k r)) * B (ix2 r q)) + db (ix1 q)) 0

/-- The reference's form as one array. -/
def split (x : TX) (K : TW) (bias : TV) (A : TA) (B : TB) (db : TV) : TOut := fun i => splitAt x K bias A B db (i 0) (i 1)

/-- A finite sum of reals, read in the extended reals, is the sum of the readings. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- In the reals: `∑ k, x k · (w k + ∑ r, a k r · b r) = ∑ k, x k · w k + ∑ r, (∑ k, x k · a k r) · b r`. -/
theorem real_fold {κ ρ : Type} [Fintype κ] [Fintype ρ] (x w : κ → ℝ) (a : κ → ρ → ℝ) (b : ρ → ℝ) :
    ∑ k, x k * (w k + ∑ r, a k r * b r) = (∑ k, x k * w k) + ∑ r, (∑ k, x k * a k r) * b r := by
  simp only [mul_add, Finset.sum_add_distrib, Finset.mul_sum, Finset.sum_mul]
  congr 1
  rw [Finset.sum_comm]
  exact Finset.sum_congr rfl fun r _ => Finset.sum_congr rfl fun k _ => (mul_assoc _ _ _).symm

/-- The same in the extended reals, on real entries, with the two bias terms carried along. -/
theorem ereal_fold {κ ρ : Type} [Fintype κ] [Fintype ρ] (x w : κ → EReal) (a : κ → ρ → EReal) (b : ρ → EReal) (β δ : EReal)
    (hx : AllReal x) (hw : AllReal w) (ha : ∀ k, AllReal (a k)) (hb : AllReal b) :
    (∑ k, x k * (w k + ∑ r, a k r * b r)) + (β + δ) = (((∑ k, x k * w k) + β) + ∑ r, (∑ k, x k * a k r) * b r) + δ := by
  choose X hX using hx
  choose W hW using hw
  choose A hA using ha
  choose B hB using hb
  simp only [hX, hW, hA, hB]
  simp only [← EReal.coe_mul, ← coe_sum, ← EReal.coe_add]
  rw [real_fold X W A B, EReal.coe_add, add_add_add_comm, ← add_assoc]

/-- THE LAW: on real entries the dense layer at the folded weight and bias row is the reference's form. -/
theorem denseAt_fold (x : TX) (K : TW) (bias : TV) (A : TA) (B : TB) (db : TV)
    (hx : AllReal x) (hK : AllReal K) (hA : AllReal A) (hB : AllReal B) (p : Fin 131072) (q : Fin 128) :
    denseAt x (foldW K A B) (foldRow bias db) p q = splitAt x K bias A B db p q := by
  unfold denseAt splitAt foldW foldRow
  exact congrArg (max · 0) (ereal_fold (fun k : Fin 256 => x (ix2 p k)) (fun k => K (ix2 k q))
    (fun k r => A (ix2 k r)) (fun r : Fin 4 => B (ix2 r q)) (bias (ix1 q)) (db (ix1 q))
    (fun k => hx _) (fun k => hK _) (fun k r => hA _) (fun r => hB _))

theorem dense_fold (x : TX) (K : TW) (bias : TV) (A : TA) (B : TB) (db : TV)
    (hx : AllReal x) (hK : AllReal K) (hA : AllReal A) (hB : AllReal B) :
    dense x (foldW K A B) (foldRow bias db) = split x K bias A B db :=
  funext fun i => denseAt_fold x K bias A B db hx hK hA hB (i 0) (i 1)

end Cert.LowRank

end
-- ==== Proof.IdealValue.lean ====
/-
  The idealized kernel's result array as one function of its arguments. Grid point `t` writes back rows
  `4096 t … 4096 t + 4095` of the dense layer applied to the whole batch, the folded weight and the folded bias row
  as the region finds them; the 32 row blocks tile the result, so after the run the result array IS that dense layer.
  The folded weight the region finds is `K + A · B` and the folded bias row `bias + db`, with `A`, `B`, `db` the rows
  the domain index selects out of the three tables: the selection is carried as three opaque functions of the
  arguments, the very stages the reference computes, and never opened.
-/
import proofs.«144904_j54752243089559_1_alg».proof.Proof.IdealFrame
import proofs.«144904_j54752243089559_1_alg».proof.Proof.IdealPayload
import proofs.«144904_j54752243089559_1_alg».proof.Proof.Spec
import proofs.«144904_j54752243089559_1_alg».proof.Proof.RefReadP
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr Cert.KernelIdeal.Pay Cert.LowRank
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The rows the domain index selects -/

/-- The seven arguments as launched, at their literal types. -/
abbrev arg0v (c : Dev nD) : FVec Ideal S131072x256 .f32 := m ((c : Thread nD τ).loc main_arg0)
abbrev arg1v (c : Dev nD) : IVec S131072x1 32 := m ((c : Thread nD τ).loc main_arg1)
abbrev arg2v (c : Dev nD) : FVec Ideal S64x256x4 .f32 := m ((c : Thread nD τ).loc main_arg2)
abbrev arg3v (c : Dev nD) : FVec Ideal S64x4x128 .f32 := m ((c : Thread nD τ).loc main_arg3)
abbrev arg4v (c : Dev nD) : FVec Ideal S64x128 .f32 := m ((c : Thread nD τ).loc main_arg4)
abbrev arg5v (c : Dev nD) : FVec Ideal S256x128 .f32 := m ((c : Thread nD τ).loc main_arg5)
abbrev arg6v (c : Dev nD) : FVec Ideal S128 .f32 := m ((c : Thread nD τ).loc main_arg6)

/-- The selected 256 × 4 factor, 4 × 128 factor and bias vector, as functions of the index array and the tables. -/
abbrev selA (c : Dev nD) : FVec Ideal S256x4 .f32 :=
  Cert.ReferenceIdeal.ReadP.val_main_v16 (F := Ideal) (arg1v m c) (arg2v m c)
abbrev selB (c : Dev nD) : FVec Ideal S4x128 .f32 :=
  Cert.ReferenceIdeal.ReadP.val_main_v27 (F := Ideal) (arg1v m c) (arg3v m c)
abbrev selDb (c : Dev nD) : FVec Ideal S128 .f32 :=
  Cert.ReferenceIdeal.ReadP.val_main_v35 (F := Ideal) (arg1v m c) (arg4v m c)

/-! ## The arrays and blocks at their literal types -/

abbrev xarr (c : Dev nD) : FVec Ideal S131072x256 .f32 := V m c main_arg0
abbrev warr (c : Dev nD) : FVec Ideal S256x128 .bf16 := V m c main_v35
abbrev barr (c : Dev nD) : FVec Ideal S1x128 .f32 := V m c main_v36
abbrev xblk (c : Dev nD) (t : Fin cfg0.N) : FVec Ideal S4096x256 .f32 := iblk m c 0 t
abbrev wblk (c : Dev nD) (t : Fin cfg0.N) : FVec Ideal S256x128 .bf16 := iblk m c 1 t
abbrev bblk (c : Dev nD) (t : Fin cfg0.N) : FVec Ideal S1x128 .f32 := iblk m c 2 t

/-! ## What the host stretch leaves in the weight and bias-row buffers -/

/-- The narrowed weight buffer holds `kernel + A · B` of the selected factors. -/
theorem warr_term (c : Dev nD) :
    warr m c = truncf .bf16 (addf (F := Ideal) (arg5v m c)
      (Host.dotGeneral dot_S256x4_S4x128_S256x128_1_0_0_1_n_n none (selA m c) (selB m c))) bitsLt_bf16_f32 := by
  show StableHlo.after hostOps0 (fun b => m (c, b)) (Proc.devRef .tc main_v35) = _
  after_results_simp
  refine congrArg₂ (fun sa sb => truncf .bf16 (addf (F := Ideal) (arg5v m c)
      (Host.dotGeneral dot_S256x4_S4x128_S256x128_1_0_0_1_n_n none
        (shapeCast S256x4 (Host.dynamicSlice S1x256x4 (arg2v m c) sa sliceFits_S64x256x4_S1x256x4) shapeCasts_S1x256x4_S256x4)
        (shapeCast S4x128 (Host.dynamicSlice S1x4x128 (arg3v m c) sb sliceFits_S64x4x128_S1x4x128) shapeCasts_S1x4x128_S4x128)))
      bitsLt_bf16_f32) ?_ ?_
  · funext k
    fin_cases k <;> (try simp only [Matrix.cons_val_zero', Matrix.cons_val_succ', Fin.zero_eta, Fin.mk_one, Matrix.cons_val_zero, Matrix.cons_val_one, Matrix.cons_val_two, Matrix.head_cons, Matrix.tail_cons]) <;> (try after_results_simp) <;> rfl
  · funext k
    fin_cases k <;> (try simp only [Matrix.cons_val_zero', Matrix.cons_val_succ', Fin.zero_eta, Fin.mk_one, Matrix.cons_val_zero, Matrix.cons_val_one, Matrix.cons_val_two, Matrix.head_cons, Matrix.tail_cons]) <;> (try after_results_simp) <;> rfl

/-- The bias-row buffer holds `bias + db` of the selected bias vector, as one row. -/
theorem barr_term (c : Dev nD) :
    barr m c = shapeCast S1x128 (addf (F := Ideal) (arg6v m c) (selDb m c)) shapeCasts_S128_S1x128 := by
  show StableHlo.after hostOps0 (fun b => m (c, b)) (Proc.devRef .tc main_v36) = _
  after_results_simp
  refine congrArg (fun s => shapeCast S1x128 (addf (F := Ideal) (arg6v m c)
      (shapeCast S128 (Host.dynamicSlice S1x128 (arg4v m c) s sliceFits_S64x128_S1x128) shapeCasts_S1x128_S128))
      shapeCasts_S128_S1x128) ?_
  funext k
  fin_cases k <;> (try simp only [Matrix.cons_val_zero', Matrix.cons_val_succ', Fin.zero_eta, Fin.mk_one, Matrix.cons_val_zero, Matrix.cons_val_one, Matrix.cons_val_two, Matrix.head_cons, Matrix.tail_cons]) <;> (try after_results_simp) <;> rfl

/-- Index by index the weight buffer is the folded weight. -/
theorem warr_eq (c : Dev nD) : (warr m c : TW) = foldW (arg5v m c) (selA m c) (selB m c) := by
  rw [warr_term]
  funext j
  obtain ⟨k, q, rfl⟩ : ∃ (k : Fin 256) (q : Fin 128), j = ix2 k q := ⟨j 0, j 1, eq_ix2 j⟩
  show arg5v m c (ix2 k q) + Host.dotGeneral dot_S256x4_S4x128_S256x128_1_0_0_1_n_n none (selA m c) (selB m c) (ix2 k q) = _
  rw [lowrank_apply]
  rfl

/-- Index by index the bias-row buffer is the folded bias row. -/
theorem barr_eq (c : Dev nD) : (barr m c : TRow) = foldRow (arg6v m c) (selDb m c) := by
  rw [barr_term]
  funext j
  obtain ⟨u, q, rfl⟩ : ∃ (u : Fin 1) (q : Fin 128), j = ix2 u q := ⟨j 0, j 1, eq_ix2 j⟩
  refine (shapeCast_a_1a_apply _ shapeCasts_S128_S1x128 u q).trans ?_
  rfl

/-! ## The index maps over the grid -/

/-- Decided over the 32 points: the batch window moves down the rows with the output window, every other block index
    is zero, and the output's row-block index stays below 32. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every one of the 32 row blocks is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- Row `p` of point `t`'s block is row `4096 · (block index) + p` of the array. -/
def rowOf (t : Fin cfg0.N) (p : Fin 4096) : Fin 131072 :=
  ⟨win0_3.index t (0 : Fin 2) * 4096 + p.val, by have := (idx_facts t).2.2.2.2.2.2.1; have := p.isLt; omega⟩

/-! ## The blocks read at an index -/

theorem xblk_apply (c : Dev nD) (t : Fin cfg0.N) (p : Fin 4096) (k : Fin 256) :
    xblk m c t (ix2 p k) = xarr m c (ix2 (rowOf t p) k) := by
  obtain ⟨e0, e1, -⟩ := idx_facts t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 4096 + 1 * p.val = win0_3.index t (0 : Fin 2) * 4096 + p.val; omega
  | ⟨1, _⟩ => show win0_0.index t (1 : Fin 2) * 256 + 1 * k.val = k.val; omega

theorem wblk_apply (c : Dev nD) (t : Fin cfg0.N) (k : Fin 256) (q : Fin 128) :
    wblk m c t (ix2 k q) = warr m c (ix2 k q) := by
  obtain ⟨-, -, e2, e3, -⟩ := idx_facts t
  show V m c main_v35 (((cfg0.win 1).blk t).view.emb (ix2 k q)) = V m c main_v35 (ix2 k q)
  refine congrArg (V m c main_v35) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

theorem bblk_apply (c : Dev nD) (t : Fin cfg0.N) (u : Fin 1) (q : Fin 128) :
    bblk m c t (ix2 u q) = barr m c (ix2 u q) := by
  obtain ⟨-, -, -, -, e4, e5, -⟩ := idx_facts t
  show V m c main_v36 (((cfg0.win 2).blk t).view.emb (ix2 u q)) = V m c main_v36 (ix2 u q)
  refine congrArg (V m c main_v36) (funext fun a => Fin.ext ?_)
  match a with
  | ⟨0, _⟩ => show win0_2.index t (0 : Fin 2) * 1 + 1 * u.val = u.val; omega
  | ⟨1, _⟩ => show win0_2.index t (1 : Fin 2) * 128 + 1 * q.val = q.val; omega

/-- Where the output block's `(p, q)` lies in the result array. -/
theorem out_emb (t : Fin cfg0.N) (p : Fin 4096) (q : Fin 128) :
    ((cfg0.win 3).blk t).view.emb (ix2 p q) = (ix2 (rowOf t p) q : S131072x128.Idx) := by
  obtain ⟨-, -, -, -, -, -, -, e7⟩ := idx_facts t
  refine funext fun a => Fin.ext ?_
  match a with
  | ⟨0, _⟩ => show win0_3.index t (0 : Fin 2) * 4096 + 1 * p.val = win0_3.index t (0 : Fin 2) * 4096 + p.val; omega
  | ⟨1, _⟩ => show win0_3.index t (1 : Fin 2) * 128 + 1 * q.val = q.val; omega

/-! ## What a point writes back, the cover, the final array -/

theorem hz : (![0, 0] : Fin 2 → Nat) = fun _ => 0 := funext fun a => by fin_cases a <;> rfl

/-- WHAT POINT `t` WRITES BACK is block `t` of the dense layer of the arrays the region finds. -/
theorem flushed_eq (c : Dev nD) (t : Fin cfg0.N) :
    (dats m 0 c).flushed 3 t = ((cfg0.win 3).blk t).view.read (Elt Ideal) (dense (xarr m c) (warr m c) (barr m c)) := by
  show (cfg0.win 3).cut (grid0.coords t) ((dats m 0 c).after 3 t) = _
  rw [after_3]
  unfold outBlk
  rw [View.canon_unit_zero hz]
  simp only [View.ld_unit_zero (S := S4096x256) hz, View.ld_unit_zero (S := S256x128) hz, View.ld_unit_zero (S := S1x128) hz]
  funext j
  obtain ⟨p, q, rfl⟩ : ∃ (p : Fin 4096) (q : Fin 128), j = ix2 p q := ⟨j 0, j 1, eq_ix2 j⟩
  show k0_pay1 (F := Ideal) (xblk m c t) (wblk m c t) (bblk m c t) (ix2 p q)
    = dense (xarr m c) (warr m c) (barr m c) (((cfg0.win 3).blk t).view.emb (ix2 p q))
  rw [out_emb]
  refine (pay_apply (xblk m c t) (wblk m c t) (bblk m c t) p q).trans ?_
  show _ = denseAt (xarr m c) (warr m c) (barr m c) (rowOf t p) q
  unfold denseAt
  simp only [xblk_apply, wblk_apply, bblk_apply]

/-- An index of the result array is in point `t`'s block iff each coordinate is in the block's range on its axis. -/
theorem mem_blk (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v37).slice (win0_3.rect t)).set ↔ _
  rw [View.set_slice_whole, Rect.mem_set_unit]
  exact Iff.rfl

/-- Row `r` of the result lies in the block of the point whose row-block index is `r / 4096`. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE RESULT ARRAY after the run: the dense layer of the batch as launched, the folded weight and the folded bias row. -/
theorem final (c : Dev nD) :
    (dats m 0 c).arrAt 3 cfg0.N
      = dense (arg0v m c)
          (foldW (arg5v m c) (selA m c) (selB m c))
          (foldRow (arg6v m c) (selDb m c)) := by
  rw [(dats m 0 c).arrAt_eq_of_cover 3 (dense (xarr m c) (warr m c) (barr m c)) (fun t _ => flushed_eq m c t) cover,
    warr_eq, barr_eq]
  show dense (V m c main_arg0) _ _ = _
  rw [V_main_arg0]

/-- The run, read: the result array at that function of the arguments, the seven arguments unchanged. -/
theorem run : θ_run defs (onTc (τ := τ) (main (F := Ideal))) ⟨m, fun _ => 0, ρ⟩ fun r => ∀ c : Dev nD,
      r.2.mem ((c : Thread nD τ).loc main_v37)
        = dense (arg0v m c)
            (foldW (arg5v m c) (selA m c) (selB m c))
            (foldRow (arg6v m c) (selDb m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_named m ρ)

end Cert.KernelIdeal.Val

end
-- ==== Proof.RefValue.lean ====
/-
  The reference's result as the specification's function. Read one operation at a time, the reference's last stage at
  row `p`, column `q` is the dense part `∑ k, x[p, k] · K[k, q]` plus `bias[q]`, plus the low-rank part
  `∑ r, (∑ k, x[p, k] · A[k, r]) · B[r, q]`, plus `db[q]`, rectified; `A`, `B` and `db` are the reference's own stages
  for the rows the domain index selects, and stay unopened.
-/
import proofs.«144904_j54752243089559_1_alg».proof.Proof.RefReadP
import proofs.«144904_j54752243089559_1_alg».proof.Proof.Spec

noncomputable section

namespace Cert.ReferenceIdeal.RefVal

open Cert.ReferenceIdeal Cert.ReferenceIdeal.Gen Cert.ReferenceIdeal.ReadP Cert.LowRank
open Idealize.ShloMosaic Idealize.ShloMosaic.ValueIdx

/-- The reference's last stage IS the reference form of the specification, at the selected rows' stages. -/
theorem ref_eq (x0 : (⟨S131072x256, .f32⟩ : BufTy).Contents (Elt Ideal)) (x1 : (⟨S131072x1, .i32⟩ : BufTy).Contents (Elt Ideal))
    (x2 : (⟨S64x256x4, .f32⟩ : BufTy).Contents (Elt Ideal)) (x3 : (⟨S64x4x128, .f32⟩ : BufTy).Contents (Elt Ideal))
    (x4 : (⟨S64x128, .f32⟩ : BufTy).Contents (Elt Ideal)) (x5 : (⟨S256x128, .f32⟩ : BufTy).Contents (Elt Ideal))
    (x6 : (⟨S128, .f32⟩ : BufTy).Contents (Elt Ideal)) :
    val_main_v42 (F := Ideal) x0 x1 x2 x3 x4 x5 x6
      = split x0 x5 x6 (val_main_v16 (F := Ideal) x1 x2) (val_main_v27 (F := Ideal) x1 x3) (val_main_v35 (F := Ideal) x1 x4) := by
  funext i
  obtain ⟨p, q, rfl⟩ : ∃ (p : Fin 131072) (q : Fin 128), i = ix2 p q := ⟨i 0, i 1, eq_ix2 i⟩
  have e1 : ∀ k : Fin 256, lidx_main_v0 (ix2 p q) k = ix2 p k := fun k => funext fun a => by
    match a with | ⟨0, _⟩ => rfl | ⟨1, _⟩ => rfl
  have e2 : ∀ k : Fin 256, ridx_main_v0 (ix2 p q) k = ix2 k q := fun k => funext fun a => by
    match a with | ⟨0, _⟩ => rfl | ⟨1, _⟩ => rfl
  have e3 : idx_main_v1 (idx_main_v2 (ix2 p q)) = ix1 q := funext fun a => by
    match a with | ⟨0, _⟩ => rfl
  have e4 : ∀ (r : Fin 4) (k : Fin 256), lidx_main_v36 (lidx_main_v37 (ix2 p q) r) k = ix2 p k := fun r k => funext fun a => by
    match a with | ⟨0, _⟩ => rfl | ⟨1, _⟩ => rfl
  have e5 : ∀ (r : Fin 4) (k : Fin 256), ridx_main_v36 (lidx_main_v37 (ix2 p q) r) k = ix2 k r := fun r k => funext fun a => by
    match a with | ⟨0, _⟩ => rfl | ⟨1, _⟩ => rfl
  have e6 : ∀ r : Fin 4, ridx_main_v37 (ix2 p q) r = ix2 r q := fun r => funext fun a => by
    match a with | ⟨0, _⟩ => rfl | ⟨1, _⟩ => rfl
  have e7 : idx_main_v39 (idx_main_v40 (ix2 p q)) = ix1 q := funext fun a => by
    match a with | ⟨0, _⟩ => rfl
  rw [val_main_v42_apply, val_main_v41_apply, val_main_v38_apply, val_main_v3_apply, val_main_v0_apply, val_main_v2_apply,
    val_main_v1_apply, val_main_v37_apply, val_main_v40_apply, val_main_v39_apply, val_main_call0_v0_apply,
    val_main_call0_cst_apply]
  simp only [val_main_v36_apply, e1, e2, e3, e4, e5, e6, e7, Ideal.maximumf_def, Ideal.addf_def, Ideal.ofBits_def,
    Ideal.ofBits_zero_f32]
  rfl

/-- A dynamic slice reads entries of its operand, wherever the clamped start lands: real entries stay real. -/
theorem allReal_dynamicSlice {s t : Shape} (x : s.Idx → EReal) (start : Fin s.rank → Int) (h : s.Slices (fun _ => 0) t)
    (hx : AllReal x) : AllReal (Host.dynamicSlice t x start h) := fun j => by
  show ∃ r : ℝ, x _ = (r : EReal)
  exact hx _

/-- The selected 256 × 4 factor holds real numbers when its table does. -/
theorem allReal_selA (x1 : (⟨S131072x1, .i32⟩ : BufTy).Contents (Elt Ideal)) (x2 : (⟨S64x256x4, .f32⟩ : BufTy).Contents (Elt Ideal))
    (h : AllReal x2) : AllReal (val_main_v16 (F := Ideal) x1 x2) := fun i => by
  rw [val_main_v16_apply]
  exact allReal_dynamicSlice x2 _ sliceFits_S64x256x4_S1x256x4 h _

/-- The selected 4 × 128 factor holds real numbers when its table does. -/
theorem allReal_selB (x1 : (⟨S131072x1, .i32⟩ : BufTy).Contents (Elt Ideal)) (x3 : (⟨S64x4x128, .f32⟩ : BufTy).Contents (Elt Ideal))
    (h : AllReal x3) : AllReal (val_main_v27 (F := Ideal) x1 x3) := fun i => by
  rw [val_main_v27_apply]
  exact allReal_dynamicSlice x3 _ sliceFits_S64x4x128_S1x4x128 h _

end Cert.ReferenceIdeal.RefVal

end
-- ==== Proof.Finite.lean ====
/-
  The precondition read back. It is the conjunction of six tests `all (|a| < +inf)`, one per float argument, each a
  reduction by `and` of an elementwise comparison against the pattern of +inf. Where it holds, every entry of every
  float argument is a real number: an extended real whose absolute value `max a (-a)` lies below the top is neither
  infinity.
-/
import proofs.«144904_j54752243089559_1_alg».proof.Pre_finite_inputs
import proofs.«144904_j54752243089559_1_alg».proof.Proof.Spec
import Idealize.ShloMosaic.Lib.ReduceAll
import Idealize.ShloMosaic.Lib.ValueIdx
import Idealize.ShloMosaic.PureOps.Ideal

noncomputable section

namespace Cert.LowRank

open Idealize.ShloMosaic

/-- The f32 pattern with all exponent bits set and no fraction bit is the top of the extended reals. -/
theorem inf_pattern : Ideal.ofBits .f32 0x7F800000#32 = (⊤ : EReal) := by
  simp [Ideal.ofBits, Ideal.ieee]

/-- An extended real whose absolute value compares below that pattern is a real number. -/
theorem real_of_abs_lt (x : EReal) (h : Ideal.cmp .olt (max x (-x)) (Ideal.ofBits .f32 0x7F800000#32) = 1#1) :
    ∃ r : ℝ, x = (r : EReal) := by
  rw [inf_pattern] at h
  have hb : ∀ b : Bool, BitVec.ofBool b = 1#1 → b = true := by decide
  have hlt : max x (-x) < ⊤ := of_decide_eq_true (hb _ h)
  induction x using EReal.rec with
  | bot => simp at hlt
  | top => simp at hlt
  | coe r => exact ⟨r, rfl⟩

instance : Subsingleton ((⟨0, ![]⟩ : Shape).Idx) := ⟨fun _ _ => funext fun d => d.elim0⟩

/-- One test of the conjunction: where the reduction by `and` is 1, every entry of the array is real. -/
theorem allReal_of_test {s : Shape} {axes : List (Fin s.rank)} (a : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
        (constantI ⟨0, ![]⟩ 1 1#1) hr hu ValueIdx.ix0 = 1#1) :
    AllReal (fun i => (a i : EReal)) := fun i =>
  real_of_abs_lt (a i) (Host.reduce_andi_all _ _ hr hu ValueIdx.ix0 e i)

section
variable [Cert.Pre_finite_inputs.Facts]
open Cert.Pre_finite_inputs Cert.Pre_finite_inputs.Facts

/-- Where the printed precondition is all ones, the batch, the two low-rank factor tables and the dense weight hold
    real numbers only (so do the two bias arrays, which the proof does not need). -/
theorem allReal_of_pre (a0 : FVec Ideal S131072x256 .f32) (a1 : IVec S131072x1 32) (a2 : FVec Ideal S64x256x4 .f32)
    (a3 : FVec Ideal S64x4x128 .f32) (a4 : FVec Ideal S64x128 .f32) (a5 : FVec Ideal S256x128 .f32) (a6 : FVec Ideal S128 .f32)
    (h : Cert.Pre_finite_inputs.fn (F := Ideal) a0 a1 a2 a3 a4 a5 a6 = fun _ => 1#1) :
    AllReal (fun i => (a0 i : EReal)) ∧ AllReal (fun i => (a2 i : EReal)) ∧ AllReal (fun i => (a3 i : EReal))
      ∧ AllReal (fun i => (a5 i : EReal)) := by
  have h0 := congrFun h ValueIdx.ix0
  dsimp only [Cert.Pre_finite_inputs.fn, Cert.Pre_finite_inputs.fn_part1] at h0
  obtain ⟨h1, -⟩ := IntOp.andi_eq_one.1 (show IntOp.andi _ _ = 1#1 from h0)
  obtain ⟨h2, e5⟩ := IntOp.andi_eq_one.1 (show IntOp.andi _ _ = 1#1 from h1)
  obtain ⟨h3, -⟩ := IntOp.andi_eq_one.1 (show IntOp.andi _ _ = 1#1 from h2)
  obtain ⟨h4, e3⟩ := IntOp.andi_eq_one.1 (show IntOp.andi _ _ = 1#1 from h3)
  obtain ⟨e0, e2⟩ := IntOp.andi_eq_one.1 (show IntOp.andi _ _ = 1#1 from h4)
  exact ⟨allReal_of_test a0 _ _ _ e0, allReal_of_test a2 _ _ _ e2, allReal_of_test a3 _ _ _ e3, allReal_of_test a5 _ _ _ e5⟩

end

end Cert.LowRank

end
-- ==== Proof.lean ====
/-
  A dense layer with a per-domain low-rank update: `relu (x · K + bias + (x · A) · B + db)`, where `A`, `B`, `db` are the
  rows one domain index selects out of three tables. The kernel folds the update into the weight and the bias first,
  `relu (x · (K + A · B) + (bias + db))`, and runs one pipelined matrix product over 32 row blocks of the batch.

  The three frames: each program runs to the end without a fault and leaves its seven arguments as launched (the two
  kernels' from their runs, the reference's from its generated run). The idealization rewrote nothing, so what it
  preserves is trivially true. The value claim: on the extended reals the kernel's result array is the dense layer at
  the folded weight and bias row (its 32 written-back blocks tile the array), the reference's last stage is the
  split form, and on finite inputs — which the precondition states — the two forms are one function: the product
  distributes over `K + A · B` and the finite sums over the contracted axis and over the rank exchange. The selection
  of rows by the domain index is the same three stages on both sides and is never opened, except to see that a
  selected entry is an entry of its table and so a real number.
-/
import proofs.«144904_j54752243089559_1_alg».proof.Defs
import proofs.«144904_j54752243089559_1_alg».proof.Proof.Gen.Kernel
import proofs.«144904_j54752243089559_1_alg».proof.Proof.Gen.KernelIdeal
import proofs.«144904_j54752243089559_1_alg».proof.Proof.Gen.ReferenceIdeal
import proofs.«144904_j54752243089559_1_alg».proof.Proof.Gen.Pre_finite_inputs
import proofs.«144904_j54752243089559_1_alg».proof.Proof.RefRunP
import proofs.«144904_j54752243089559_1_alg».proof.Proof.RefReadP
import proofs.«144904_j54752243089559_1_alg».proof.Proof.BitsFrame
import proofs.«144904_j54752243089559_1_alg».proof.Proof.IdealValue
import proofs.«144904_j54752243089559_1_alg».proof.Proof.RefValue
import proofs.«144904_j54752243089559_1_alg».proof.Proof.Finite
import Idealize.ShloMosaic.Adequacy
import Idealize.ShloMosaic.Init

noncomputable section

namespace Cert.Proof

open Idealize.ShloMosaic Idealize.ShloMosaic.TcCoe Idealize.SL.Sem Cert.LowRank

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel's array is the dense layer at the folded weight and bias row; the reference's is the split form of the
    same arguments; finite entries make them equal. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  refine (Cert.ReferenceIdeal.ReadP.val_main_v42_eq (F := Ideal) _ _ _ _ _ _ _).trans ?_
  rw [Cert.ReferenceIdeal.RefVal.ref_eq, a0, a1, a2, a3, a4, a5, a6]
  obtain ⟨hx, hA, hB, hK⟩ := allReal_of_pre _ _ _ _ _ _ _ (hpre c)
  exact (dense_fold _ _ _ _ _ _ hx hK (Cert.ReferenceIdeal.RefVal.allReal_selA _ _ hA)
    (Cert.ReferenceIdeal.RefVal.allReal_selB _ _ hB)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
